-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S16x32 .f32) (main_arg6 : FVec F S32 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x64 .f32) (main_arg1 : IVec S2x3200000 32) (main_arg2 : FVec F S3200000 .f32) (main_arg3 : FVec F S64x16 .f32) (main_arg4 : FVec F S16 .f32) (main_arg5 : FVec F S16x32 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x64 : Shape := ⟨2, ![2000, 64]⟩
abbrev S2000x16 : Shape := ⟨2, ![2000, 16]⟩
abbrev S3300000x16 : Shape := ⟨2, ![3300000, 16]⟩
abbrev S100000x32 : Shape := ⟨2, ![100000, 32]⟩
abbrev S2000x32 : Shape := ⟨2, ![2000, 32]⟩
abbrev S1x16 : Shape := ⟨2, ![1, 16]⟩
abbrev S1x32 : Shape := ⟨2, ![1, 32]⟩

abbrev nBuf : Space → Nat
  | .hbm => 67
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S64x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S100000x32, .f32⟩
  | .local _ .vmem, ⟨0, _⟩ => ⟨S2000x64, .f32⟩
  | .local _ .vmem, ⟨1, _⟩ => ⟨S2000x64, .f32⟩
  | .local _ .vmem, ⟨2, _⟩ => ⟨S64x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16, .f32⟩
  | .local _ .vmem, ⟨8, _⟩ => ⟨S16x32, .f32⟩
  | .local _ .vmem, ⟨9, _⟩ => ⟨S32, .f32⟩
  | .local _ .vmem, ⟨10, _⟩ => ⟨S2000x32, .f32⟩
  | .local _ .vmem, ⟨11, _⟩ => ⟨S2000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S2000x16_S2000x16 : S2000x16.ShapeCasts S2000x16
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S16x32_S16x32_0_0 : ∀ a, (![0, 0] : Fin 2 → Nat) a + S16x32.size a ≤ S16x32.size a
  h_S16x32 : 0 < S16x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x64_S64x16_S2000x16_1_0_0_1_n_n_wf : DotDims.WF S2000x64 S64x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x32_S2000x32_1_0_0_1_n_n_wf : DotDims.WF S2000x16 S16x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S100000x32.size a
  hwx1_4 : ∀ i : grid1.Coords, EltTy.bits .f32 = 32 ∨ (Rect.block (s := S100000x32) S2000x32.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x32 : Shape := ⟨2, ![100000, 32]⟩
abbrev S1x32 : Shape := ⟨2, ![1, 32]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S64x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x32, .f32⟩
  | .hbm, ⟨73, _⟩ => ⟨S1x32, .f32⟩
  | .hbm, ⟨74, _⟩ => ⟨S100000x32, .f32⟩
  | .hbm, ⟨75, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.HostValues.lean ====
/-
  The host-side values of the kernel's program at the entry of its first dense stage, as the reference's stages.

  Before the first dense stage the kernel's program computes, from the edge list and the edge weights alone, the
  source indices `row`, the target indices `col` (each with the self loops appended) and the symmetric
  normalisation `norm = dinv[row] * w * dinv[col]`; the reference computes the same three arrays by the same
  operations. The values are read off stretch by stretch: the first stretch up to the two concatenated index lists, the
  weights and the in-degree's positivity mask and reciprocal square root; then the outlined select
  (`where(deg > 0, rsqrt deg, 0)`), which rewrites none of the earlier values; then the two gathers and products.
  The two programs' dimension records for the gather hold the same numbers, so each value is the reference's stage of
  the same name applied to the kernel's own argument arrays.
-/
import proofs.«182122_j72825465471158_1_alg».proof.Proof.Gen.KernelIdeal.Frame
import proofs.«182122_j72825465471158_1_alg».proof.Proof.Gen.ReferenceIdeal.Read
import Idealize.ShloMosaic.Lib.StableHlo.Run

set_option maxRecDepth 16384

noncomputable section

namespace Cert.KernelIdeal.HostValues

open Idealize.ShloMosaic Idealize.ShloMosaic.TcCoe Idealize.SL.Sem Idealize.ShloMosaic.StableHlo
open Cert.KernelIdeal Cert.KernelIdeal.Gen
open Cert.ReferenceIdeal.Read (val_main_v3 val_main_v6 val_main_v8 val_main_v13 val_main_v14 val_main_cst_2 val_main_v31)

variable (m : (ℓ : Loc nD τ sig) → Buf (Elt Ideal) ℓ) (ρ : Dev nD → PrngReg)

/-! ## After the first stretch -/

/-- The source indices with the self loops appended. -/
theorem first_row (c : Dev nD) :
    StableHlo.after hostOps0 (W0 m ρ c) (Proc.devRef .tc main_v3)
      = val_main_v3 (F := Ideal) (m ((c : Thread nD τ).loc main_arg1)) := by
  after_results
  rfl

/-- The target indices with the self loops appended. -/
theorem first_col (c : Dev nD) :
    StableHlo.after hostOps0 (W0 m ρ c) (Proc.devRef .tc main_v6)
      = val_main_v6 (F := Ideal) (m ((c : Thread nD τ).loc main_arg1)) := by
  after_results
  rfl

/-- The edge weights with the self loops' ones appended. -/
theorem first_weights (c : Dev nD) :
    StableHlo.after hostOps0 (W0 m ρ c) (Proc.devRef .tc main_v8)
      = val_main_v8 (F := Ideal) (m ((c : Thread nD τ).loc main_arg2)) := by
  after_results
  rfl

/-- Where the in-degree is positive. -/
theorem first_mask (c : Dev nD) :
    StableHlo.after hostOps0 (W0 m ρ c) (Proc.devRef .tc main_v13)
      = val_main_v13 (F := Ideal) (m ((c : Thread nD τ).loc main_arg1)) (m ((c : Thread nD τ).loc main_arg2)) := by
  after_results
  rfl

/-- The in-degree's reciprocal square root. -/
theorem first_rsqrt (c : Dev nD) :
    StableHlo.after hostOps0 (W0 m ρ c) (Proc.devRef .tc main_v14)
      = val_main_v14 (F := Ideal) (m ((c : Thread nD τ).loc main_arg1)) (m ((c : Thread nD τ).loc main_arg2)) := by
  after_results
  rfl

/-- The zero the select falls back to. -/
theorem first_zero (c : Dev nD) :
    StableHlo.after hostOps0 (W0 m ρ c) (Proc.devRef .tc main_cst_2) = val_main_cst_2 (F := Ideal) := by
  after_results
  rfl

/-! ## Through the outlined select -/

/-- The select's result from the contents it is entered with. -/
theorem select_result (W : Valuation τ sig (Elt Ideal)) :
    StableHlo.after (hostOps0_1 (F := Ideal)) W (Proc.devRef .tc main_v15)
      = select (W (Proc.devRef .tc main_v13)) (W (Proc.devRef .tc main_v14))
          (broadcastInDim S100000 ![] bcast_S_S100000 (W (Proc.devRef .tc main_cst_2))) := by
  after_results_simp
  rfl

/-- The select leaves the source indices as they were. -/
theorem select_keeps_row (W : Valuation τ sig (Elt Ideal)) :
    StableHlo.after (hostOps0_1 (F := Ideal)) W (Proc.devRef .tc main_v3) = W (Proc.devRef .tc main_v3) := by
  after_results_simp

/-- The select leaves the target indices as they were. -/
theorem select_keeps_col (W : Valuation τ sig (Elt Ideal)) :
    StableHlo.after (hostOps0_1 (F := Ideal)) W (Proc.devRef .tc main_v6) = W (Proc.devRef .tc main_v6) := by
  after_results_simp

/-- The select leaves the weights as they were. -/
theorem select_keeps_weights (W : Valuation τ sig (Elt Ideal)) :
    StableHlo.after (hostOps0_1 (F := Ideal)) W (Proc.devRef .tc main_v8) = W (Proc.devRef .tc main_v8) := by
  after_results_simp

/-! ## At the first dense stage's entry -/

/-- The normalisation `dinv[row] * w * dinv[col]`. -/
theorem norm_eq (c : Dev nD) :
    W3 m ρ c (Proc.devRef .tc main_v31)
      = val_main_v31 (F := Ideal) (m ((c : Thread nD τ).loc main_arg1)) (m ((c : Thread nD τ).loc main_arg2)) := by
  show StableHlo.after hostOps0_2 (StableHlo.after hostOps0_1 (StableHlo.after hostOps0 (W0 m ρ c))) (Proc.devRef .tc main_v31) = _
  generalize hW : StableHlo.after hostOps0_1 (StableHlo.after hostOps0 (W0 m ρ c)) = W
  after_results_simp
  subst hW
  rw [select_result, select_keeps_row, select_keeps_col, select_keeps_weights, first_mask, first_rsqrt, first_zero,
    first_row, first_col, first_weights]
  unfold val_main_v31 Cert.ReferenceIdeal.Read.val_main_v30 Cert.ReferenceIdeal.Read.val_main_v29 Cert.ReferenceIdeal.Read.val_main_v28
    Cert.ReferenceIdeal.Read.val_main_v27 Cert.ReferenceIdeal.Read.val_main_v26 Cert.ReferenceIdeal.Read.val_main_v25
    Cert.ReferenceIdeal.Read.val_main_v24 Cert.ReferenceIdeal.Read.val_main_v23 Cert.ReferenceIdeal.Read.val_main_v22
    Cert.ReferenceIdeal.Read.val_main_v21 Cert.ReferenceIdeal.Read.val_main_v20 Cert.ReferenceIdeal.Read.val_main_v19
    Cert.ReferenceIdeal.Read.val_main_v18 Cert.ReferenceIdeal.Read.val_main_v17 Cert.ReferenceIdeal.Read.val_main_v16
    Cert.ReferenceIdeal.Read.val_main_v15 Cert.ReferenceIdeal.Read.val_main_call0_v1 Cert.ReferenceIdeal.Read.val_main_call0_v0
    Cert.ReferenceIdeal.Read.val_main_c Cert.ReferenceIdeal.Read.val_main_c_3 Cert.ReferenceIdeal.Read.val_main_c_4 Cert.ReferenceIdeal.Read.val_main_c_5
  generalize val_main_v13 (F := Ideal) (m ((c : Thread nD τ).loc main_arg1)) (m ((c : Thread nD τ).loc main_arg2)) = a13
  generalize val_main_v14 (F := Ideal) (m ((c : Thread nD τ).loc main_arg1)) (m ((c : Thread nD τ).loc main_arg2)) = a14
  generalize val_main_v3 (F := Ideal) (m ((c : Thread nD τ).loc main_arg1)) = a3
  generalize val_main_v6 (F := Ideal) (m ((c : Thread nD τ).loc main_arg1)) = a6
  generalize val_main_v8 (F := Ideal) (m ((c : Thread nD τ).loc main_arg2)) = a8
  generalize (val_main_cst_2 (F := Ideal)) = z
  rfl

/-- The source indices. -/
theorem row_eq (c : Dev nD) :
    W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  generalize hW : StableHlo.after hostOps0 (W0 m ρ c) = W
  after_results_simp
  subst hW
  exact first_row m ρ c

/-- The target indices. -/
theorem col_eq (c : Dev nD) :
    W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  generalize hW : StableHlo.after hostOps0 (W0 m ρ c) = W
  after_results_simp
  subst hW
  exact first_col m ρ c

/-- The first dense stage finds `x` as launched. -/
theorem entry_x (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp

/-- The first dense stage finds its weight as launched. -/
theorem entry_w (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp

end Cert.KernelIdeal.HostValues

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Payloads.lean ====
/-
  The two kernel bodies' stored values, read at an entry over the extended reals.

  The first body stores the product of its row block of `x` with the whole weight: at `(p, q)` the sum over the
  64 input features `k` of `x (p, k) * w (k, q)` (the roundings to bf16 on the way into the product are the identity on
  the extended reals, and the accumulator starts at zero). The second body adds the bias row to its block of the
  aggregate, clamps at zero from below, multiplies by the whole output weight and adds the output bias: at `(p, q)`
  the sum over the 16 hidden features `k` of `max (a (p, k) + b k) 0 * w (k, q)`, plus `b' q`.
-/
import proofs.«182122_j72825465471158_1_alg».proof.Proof.Gen.KernelIdeal.Skeleton
import proofs.«182122_j72825465471158_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The first product's dimension numbers are the plain 2000×64 by 64×16 ones. -/
theorem dims_lin : dot_S2000x64_S64x16_S2000x16_1_0_0_1_n_n = DotDims.plain 2000 64 16 := rfl

/-- The second product's dimension numbers are the plain 2000×16 by 16×32 ones. -/
theorem dims_out : dot_S2000x16_S16x32_S2000x32_1_0_0_1_n_n = DotDims.plain 2000 16 32 := rfl

/-- The zero word is the real zero. -/
theorem zero_word : Ideal.ofBits .f32 0x00000000#32 = (0 : EReal) := Ideal.ofBits_zero_f32

/-- Entry `(p, q)` of the first body's stored block: row `p` of the `x` block against column `q` of the weight. -/
theorem linear_block (x : Vec Ideal S2000x64 .f32) (w : Vec Ideal S64x16 .f32) (p : Fin 2000) (q : Fin 16) :
    k0_pay1 (F := Ideal) x w (ix2 p q) = ∑ k : Fin 64, x (ix2 p k) * w (ix2 k q) := by
  unfold k0_pay1
  rw [dims_lin]
  exact Cert.Lib.PlainDot.matmul_zero_apply none _ _ p q

/-- Entry `(p, q)` of the second body's stored block. -/
theorem output_block (a : Vec Ideal S2000x16 .f32) (b : Vec Ideal S16 .f32) (w : Vec Ideal S16x32 .f32)
    (b' : Vec Ideal S32 .f32) (p : Fin 2000) (q : Fin 32) :
    k1_pay1 (F := Ideal) a b w b' (ix2 p q)
      = (∑ k : Fin 16, max (a (ix2 p k) + b (ix1 k)) 0 * w (ix2 k q)) + b' (ix1 q) := by
  unfold k1_pay1
  rw [dims_out, addf_apply]
  refine congrArg₂ (· + ·) ((Cert.Lib.PlainDot.matmul_zero_apply none _ _ p q).trans
    (Finset.sum_congr rfl fun k _ => ?_)) ?_
  · rw [truncf_apply, truncf_apply, maximumf_apply, addf_apply, shapeCast_self,
      broadcastTo_1b_ab_apply, shapeCast_a_1a_apply, broadcast_apply]
    show max (a (ix2 p k) + b (ix1 k)) (Ideal.ofBits .f32 0x00000000#32) * w (ix2 k q) = _
    rw [zero_word]
  · rw [broadcastTo_1b_ab_apply, shapeCast_a_1a_apply]

end Cert.KernelIdeal.Payload

end
-- ==== Proof.Spec.lean ====
/-
  The two dense stages as whole-array functions over the extended reals.

  `linear x w` is the matrix product: entry `(r, q)` is the sum over `k` of `x (r, k) * w (k, q)`.
  `head a b w b'` is the output stage: entry `(r, q)` is the sum over `k` of `max (a (r, k) + b k) 0 * w (k, q)`,
  plus `b' q`. Both are stated for any number of rows, so that the same function describes a block of rows and the
  whole array: a block of consecutive rows of the result is the function of the same rows of the first operand.
-/
import Idealize.ShloMosaic.Lib.ValueIdx
import Idealize.ShloMosaic.PureOps.Ideal

noncomputable section

namespace Cert.Spec

open Idealize.ShloMosaic Idealize.ShloMosaic.ValueIdx

variable {M K N : Nat}

/-- A rank-2 index's row, as a number below the row count. -/
abbrev rowOf {n0 n1 : Nat} (i : (⟨2, ![n0, n1]⟩ : Shape).Idx) : Fin n0 := ⟨(i 0).val, idx2_lt0 i⟩

/-- A rank-2 index's column, as a number below the column count. -/
abbrev colOf {n0 n1 : Nat} (i : (⟨2, ![n0, n1]⟩ : Shape).Idx) : Fin n1 := ⟨(i 1).val, idx2_lt1 i⟩

/-- An index is its row and column. -/
theorem eq_row_col {n0 n1 : Nat} (i : (⟨2, ![n0, n1]⟩ : Shape).Idx) : i = ix2 (rowOf i) (colOf i) := by
  funext a; match a with | ⟨0, _⟩ => rfl | ⟨1, _⟩ => rfl

@[simp] theorem rowOf_ix2 {n0 n1 : Nat} (p : Fin n0) (q : Fin n1) : rowOf (ix2 p q) = p := rfl
@[simp] theorem colOf_ix2 {n0 n1 : Nat} (p : Fin n0) (q : Fin n1) : colOf (ix2 p q) = q := rfl

/-- The matrix product `x · w`, entry by entry. -/
def linear (x : (⟨2, ![M, K]⟩ : Shape).Idx → EReal) (w : (⟨2, ![K, N]⟩ : Shape).Idx → EReal) :
    (⟨2, ![M, N]⟩ : Shape).Idx → EReal :=
  fun i => ∑ k : Fin K, x (ix2 (rowOf i) k) * w (ix2 k (colOf i))

/-- The output stage `max (a + b) 0 · w + b'`, entry by entry (the biases broadcast over the rows). -/
def head (a : (⟨2, ![M, K]⟩ : Shape).Idx → EReal) (b : (⟨1, ![K]⟩ : Shape).Idx → EReal)
    (w : (⟨2, ![K, N]⟩ : Shape).Idx → EReal) (b' : (⟨1, ![N]⟩ : Shape).Idx → EReal) :
    (⟨2, ![M, N]⟩ : Shape).Idx → EReal :=
  fun i => (∑ k : Fin K, max (a (ix2 (rowOf i) k) + b (ix1 k)) 0 * w (ix2 k (colOf i))) + b' (ix1 (colOf i))

theorem linear_apply (x : (⟨2, ![M, K]⟩ : Shape).Idx → EReal) (w : (⟨2, ![K, N]⟩ : Shape).Idx → EReal)
    (p : Fin M) (q : Fin N) : linear x w (ix2 p q) = ∑ k : Fin K, x (ix2 p k) * w (ix2 k q) := rfl

theorem head_apply (a : (⟨2, ![M, K]⟩ : Shape).Idx → EReal) (b : (⟨1, ![K]⟩ : Shape).Idx → EReal)
    (w : (⟨2, ![K, N]⟩ : Shape).Idx → EReal) (b' : (⟨1, ![N]⟩ : Shape).Idx → EReal) (p : Fin M) (q : Fin N) :
    head a b w b' (ix2 p q) = (∑ k : Fin K, max (a (ix2 p k) + b (ix1 k)) 0 * w (ix2 k q)) + b' (ix1 q) := rfl

end Cert.Spec

end
-- ==== Proof.Blocks.lean ====
/-
  What each dense stage leaves in its result array, for any contents `V` the stage is entered from.

  Each stage runs over 50 grid points; point `t` reads rows `2000 t … 2000 t + 1999` of its first operand and the
  whole of its small operands, and writes back the same rows of the result. A block of consecutive rows of
  `Spec.linear` (of `Spec.head`) depends only on the same rows of the first operand, so what point `t` writes back is
  block `t` of the whole-array function; the 50 row blocks cover the 100000 rows, so the array ends at that function.
-/
import proofs.«182122_j72825465471158_1_alg».proof.Proof.Gen.KernelIdeal.Frame
import proofs.«182122_j72825465471158_1_alg».proof.Proof.Payloads
import proofs.«182122_j72825465471158_1_alg».proof.Proof.Spec
import Idealize.ShloMosaic.Lib.Pipeline.Value

set_option maxRecDepth 16384

noncomputable section

namespace Cert.KernelIdeal.Blocks

open Idealize.ShloMosaic Idealize.ShloMosaic.ValueIdx Idealize.ShloMosaic.TcCoe Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-! ## The first stage: `x · W` -/

/-- The block indices of the first stage's windows: the row block moves with the point, everything else stays. -/
theorem idx_lin : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 50 row blocks is some point's. -/
theorem onto_lin : ∀ q : Fin 50, ∃ t : Fin cfg0.N, win0_2.index t (0 : Fin 2) = q.val ∧ win0_2.index t (1 : Fin 2) = 0 :=
  (by decide +kernel : ∀ q : Fin 50, ∃ t : Fin grid0.N, _)

/-- Point `t` writes back rows `2000 t …` of the product of the operand arrays. -/
theorem flushed_lin (c : Dev nD) (t : Fin cfg0.N) :
    (dat0 V c).flushed 2 t = ((cfg0.win 2).blk t).view.read (Elt Ideal)
      (linear (M := 100000) (K := 64) (N := 16) (V c main_arg0) (V c main_arg3)) := by
  show (cfg0.win 2).cut (grid0.coords t) ((dat0 V c).after 2 t) = _
  rw [after0_2]
  unfold out0_2
  rw [View.canon_unit_zero origin2]
  simp only [View.ld_unit_zero (S := S2000x64) origin2, View.ld_unit_zero (S := S64x16) origin2]
  funext j
  obtain ⟨e00, e01, e10, e11, e20, e21⟩ := idx_lin t
  refine (congrArg (k0_pay1 (F := Ideal) (iblk0 V c 0 t) (iblk0 V c 1 t)) (eq_row_col _)).trans ?_
  refine (Payload.linear_block _ _ _ _).trans ?_
  rw [View.read_apply]
  unfold linear
  refine Finset.sum_congr rfl fun k _ => congrArg₂ (· * ·) ?_ ?_
  · unfold iblk0; rw [View.read_apply]
    show V c main_arg0 _ = V c main_arg0 _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 64 + 1 * k.val = k.val; omega
  · unfold iblk0; rw [View.read_apply]
    show V c main_arg3 _ = V c main_arg3 _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 16 + 1 * (j 1).val = win0_2.index t (1 : Fin 2) * 16 + 1 * (j 1).val; omega

/-- An index of the result is in point `t`'s block iff each coordinate is in the block's range. -/
theorem mem_blk_lin (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v32).slice (win0_2.rect t)).set ↔ _
  rw [View.set_slice_whole, Rect.mem_set_unit]
  exact Iff.rfl

/-- Row `r` is in the block of point `r / 2000`. -/
theorem cover_lin (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, q0, q1⟩ := onto_lin ⟨(i 0).val / 2000, by omega⟩
  refine ⟨t, flush0_2 t, ?_⟩
  rw [mem_blk_lin]
  intro a
  match a with
  | ⟨0, _⟩ => show win0_2.index t (0 : Fin 2) * 2000 ≤ (i 0).val ∧ (i 0).val < win0_2.index t (0 : Fin 2) * 2000 + 2000; simp only at q0; omega
  | ⟨1, _⟩ => show win0_2.index t (1 : Fin 2) * 16 ≤ (i 1).val ∧ (i 1).val < win0_2.index t (1 : Fin 2) * 16 + 16; omega

/-- After the first stage its result array holds the product of the operand arrays. -/
theorem final_lin (c : Dev nD) :
    (dat0 V c).arrAt 2 cfg0.N = linear (M := 100000) (K := 64) (N := 16) (V c main_arg0) (V c main_arg3) :=
  (dat0 V c).arrAt_eq_of_cover 2 _ (fun t _ => flushed_lin V c t) cover_lin

/-! ## The second stage: `max (agg + b) 0 · W' + b'` -/

/-- The block indices of the second stage's windows. -/
theorem idx_head : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Every one of the 50 row blocks is some point's. -/
theorem onto_head : ∀ q : Fin 50, ∃ t : Fin cfg1.N, win1_4.index t (0 : Fin 2) = q.val ∧ win1_4.index t (1 : Fin 2) = 0 :=
  (by decide +kernel : ∀ q : Fin 50, ∃ t : Fin grid1.N, _)

/-- Point `t` writes back rows `2000 t …` of the output stage of the operand arrays. -/
theorem flushed_head (c : Dev nD) (t : Fin cfg1.N) :
    (dat1 V c).flushed 4 t = ((cfg1.win 4).blk t).view.read (Elt Ideal)
      (head (M := 100000) (K := 16) (N := 32) (V c main_v45) (V c main_arg4) (V c main_arg5) (V c main_arg6)) := by
  show (cfg1.win 4).cut (grid1.coords t) ((dat1 V c).after 4 t) = _
  rw [after1_4]
  unfold out1_4
  rw [View.canon_unit_zero origin2]
  simp only [View.ld_unit_zero (S := S2000x16) origin2, View.ld_unit_zero (S := S16) origin1,
    View.ld_unit_zero (S := S16x32) origin2, View.ld_unit_zero (S := S32) origin1]
  funext j
  obtain ⟨e00, e01, e10, e20, e21, e30, e40, e41⟩ := idx_head t
  refine (congrArg (k1_pay1 (F := Ideal) (iblk1 V c 0 t) (iblk1 V c 1 t) (iblk1 V c 2 t) (iblk1 V c 3 t)) (eq_row_col _)).trans ?_
  refine (Payload.output_block _ _ _ _ _ _).trans ?_
  rw [View.read_apply]
  unfold head
  refine congrArg₂ (· + ·) (Finset.sum_congr rfl fun k _ =>
    congrArg₂ (· * ·) (congrArg₂ max (congrArg₂ (· + ·) ?_ ?_) rfl) ?_) ?_
  · unfold iblk1; rw [View.read_apply]
    show V c main_v45 _ = V c main_v45 _
    refine congrArg (V c main_v45) (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 16 + 1 * k.val = k.val; omega
  · unfold iblk1; rw [View.read_apply]
    show V c main_arg4 _ = V c main_arg4 _
    refine congrArg (V c main_arg4) (funext fun a => Fin.ext ?_)
    match a with
    | ⟨0, _⟩ => show win1_1.index t (0 : Fin 1) * 16 + 1 * k.val = k.val; omega
  · unfold iblk1; rw [View.read_apply]
    show V c main_arg5 _ = V c main_arg5 _
    refine congrArg (V c main_arg5) (funext fun a => Fin.ext ?_)
    match a with
    | ⟨0, _⟩ => show win1_2.index t (0 : Fin 2) * 16 + 1 * k.val = k.val; omega
    | ⟨1, _⟩ => show win1_2.index t (1 : Fin 2) * 32 + 1 * (j 1).val = win1_4.index t (1 : Fin 2) * 32 + 1 * (j 1).val; omega
  · unfold iblk1; rw [View.read_apply]
    show V c main_arg6 _ = V c main_arg6 _
    refine congrArg (V c main_arg6) (funext fun a => Fin.ext ?_)
    match a with
    | ⟨0, _⟩ => show win1_3.index t (0 : Fin 1) * 32 + 1 * (j 1).val = win1_4.index t (1 : Fin 2) * 32 + 1 * (j 1).val; omega

/-- An index of the result is in point `t`'s block iff each coordinate is in the block's range. -/
theorem mem_blk_head (t : Fin cfg1.N) (i : S100000x32.Idx) :
    i ∈ ((cfg1.win 4).blk t).view.set ↔ ∀ a : Fin 2, win1_4.index t a * S2000x32.size a ≤ (i a).val
      ∧ (i a).val < win1_4.index t a * S2000x32.size a + S2000x32.size a := by
  show i ∈ ((View.whole main_v46).slice (win1_4.rect t)).set ↔ _
  rw [View.set_slice_whole, Rect.mem_set_unit]
  exact Iff.rfl

/-- Row `r` is in the block of point `r / 2000`. -/
theorem cover_head (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, q0, q1⟩ := onto_head ⟨(i 0).val / 2000, by omega⟩
  refine ⟨t, flush1_4 t, ?_⟩
  rw [mem_blk_head]
  intro a
  match a with
  | ⟨0, _⟩ => show win1_4.index t (0 : Fin 2) * 2000 ≤ (i 0).val ∧ (i 0).val < win1_4.index t (0 : Fin 2) * 2000 + 2000; simp only at q0; omega
  | ⟨1, _⟩ => show win1_4.index t (1 : Fin 2) * 32 ≤ (i 1).val ∧ (i 1).val < win1_4.index t (1 : Fin 2) * 32 + 32; omega

/-- After the second stage its result array holds the output stage of the operand arrays. -/
theorem final_head (c : Dev nD) :
    (dat1 V c).arrAt 4 cfg1.N
      = head (M := 100000) (K := 16) (N := 32) (V c main_v45) (V c main_arg4) (V c main_arg5) (V c main_arg6) :=
  (dat1 V c).arrAt_eq_of_cover 4 _ (fun t _ => flushed_head V c t) cover_head

end Cert.KernelIdeal.Blocks

end
-- ==== Proof.RefStages.lean ====
/-
  The reference's dense stages as the same whole-array functions.

  The reference's first `dot_general` is `Spec.linear` of `x` and the weight: entry by entry the sum over the 64 input
  features. Its last five operations — the bias row broadcast and added to the aggregate, the maximum with zero, the
  second `dot_general`, the output bias broadcast and added — are `Spec.head` of the aggregate and the three small
  arrays. The aggregate itself, the scatter-add of the gathered and scaled rows, is carried as it stands.
-/
import proofs.«182122_j72825465471158_1_alg».proof.Proof.Gen.ReferenceIdeal.Run
import proofs.«182122_j72825465471158_1_alg».proof.Proof.Gen.ReferenceIdeal.Read
import proofs.«182122_j72825465471158_1_alg».proof.Proof.Spec

noncomputable section

namespace Cert.ReferenceIdeal.Stages

open Idealize.ShloMosaic Idealize.ShloMosaic.ValueIdx
open Cert.ReferenceIdeal Cert.ReferenceIdeal.Gen Cert.ReferenceIdeal.Read Cert.Spec

/-- The zero word is the real zero. -/
theorem zero_word : Ideal.ofBits .f32 0x00000000#32 = (0 : EReal) := Ideal.ofBits_zero_f32

/-- The reference's `x @ W_gcn` is the matrix product. -/
theorem linear_eq (x0 : (⟨S100000x64, .f32⟩ : BufTy).Contents (Elt Ideal)) (x3 : (⟨S64x16, .f32⟩ : BufTy).Contents (Elt Ideal)) :
    val_main_v32 (F := Ideal) x0 x3 = linear (M := 100000) (K := 64) (N := 16) x0 x3 := by
  funext i
  rw [val_main_v32_apply]
  unfold linear
  refine Finset.sum_congr rfl fun k _ => congrArg₂ (· * ·) (congrArg x0 ?_) (congrArg x3 ?_)
  · exact funext fun a => by match a with | ⟨0, _⟩ => rfl | ⟨1, _⟩ => rfl
  · exact funext fun a => by match a with | ⟨0, _⟩ => rfl | ⟨1, _⟩ => rfl

/-- The reference's result is the output stage of its aggregate. -/
theorem head_eq (x0 : (⟨S100000x64, .f32⟩ : BufTy).Contents (Elt Ideal)) (x1 : (⟨S2x3200000, .i32⟩ : BufTy).Contents (Elt Ideal))
    (x2 : (⟨S3200000, .f32⟩ : BufTy).Contents (Elt Ideal)) (x3 : (⟨S64x16, .f32⟩ : BufTy).Contents (Elt Ideal))
    (x4 : (⟨S16, .f32⟩ : BufTy).Contents (Elt Ideal)) (x5 : (⟨S16x32, .f32⟩ : BufTy).Contents (Elt Ideal))
    (x6 : (⟨S32, .f32⟩ : BufTy).Contents (Elt Ideal)) :
    val_main_v53 (F := Ideal) x0 x1 x2 x3 x4 x5 x6
      = head (M := 100000) (K := 16) (N := 32) (val_main_v45 (F := Ideal) x0 x1 x2 x3) x4 x5 x6 := by
  funext i
  rw [val_main_v53_apply, val_main_v50_apply, val_main_v52_apply, val_main_v51_apply]
  unfold head
  refine congrArg₂ (· + ·) (Finset.sum_congr rfl fun k _ => congrArg₂ (· * ·) ?_ (congrArg x5 ?_)) (congrArg x6 ?_)
  · rw [val_main_v49_apply, val_main_v48_apply, val_main_v47_apply, val_main_v46_apply, val_main_call1_v0_apply,
      val_main_call1_cst_apply]
    show max (val_main_v45 (F := Ideal) x0 x1 x2 x3 (lidx_main_v50 i k) + x4 _) (Ideal.ofBits .f32 0x00000000#32) = _
    rw [zero_word]
    refine congrArg₂ max (congrArg₂ (· + ·) (congrArg _ ?_) (congrArg x4 ?_)) rfl
    · exact funext fun a => by match a with | ⟨0, _⟩ => rfl | ⟨1, _⟩ => rfl
    · exact funext fun a => by match a with | ⟨0, _⟩ => rfl
  · exact funext fun a => by match a with | ⟨0, _⟩ => rfl | ⟨1, _⟩ => rfl
  · exact funext fun a => by match a with | ⟨0, _⟩ => rfl

end Cert.ReferenceIdeal.Stages

end
-- ==== Proof.KernelValue.lean ====
/-
  The kernel program's result array, as the output stage of the reference's aggregate.

  The first dense stage leaves `x · W` in its result array (the reference's first `dot_general`). Between the two
  dense stages the program gathers the rows of that product at the source indices, scales them by the
  normalisation and scatter-adds them at the target indices — the same operations, on the same index and weight
  arrays, as the reference applies to its own product; so the second dense stage is entered with the reference's
  aggregate, and it finds the two biases and the output weight as launched. What it leaves in the result array is
  `Spec.head` of those.
-/
import proofs.«182122_j72825465471158_1_alg».proof.Proof.HostValues
import proofs.«182122_j72825465471158_1_alg».proof.Proof.Blocks
import proofs.«182122_j72825465471158_1_alg».proof.Proof.RefStages
import proofs.«182122_j72825465471158_1_alg».proof.Proof.KernelRun

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.Spec
open Cert.ReferenceIdeal.Read (val_main_v3 val_main_v6 val_main_v31 val_main_v32 val_main_v45)

variable (m : (ℓ : Loc nD τ sig) → Buf (Elt Ideal) ℓ) (ρ : Dev nD → PrngReg)

/-- After the first dense stage its result array holds the reference's `x @ W_gcn`. -/
theorem product_eq (c : Dev nD) :
    W4 m ρ c (Proc.devRef .tc main_v32)
      = val_main_v32 (F := Ideal) (m ((c : Thread nD τ).loc main_arg0)) (m ((c : Thread nD τ).loc main_arg3)) := by
  refine (W4_arr m ρ c 2).trans ((Blocks.final_lin (V3 m ρ) c).trans ?_)
  rw [HostValues.entry_x, HostValues.entry_w, Cert.ReferenceIdeal.Stages.linear_eq]

/-- The first dense stage leaves the source indices as they were. -/
theorem row_kept (c : Dev nD) :
    W4 m ρ c (Proc.devRef .tc main_v3) = val_main_v3 (F := Ideal) (m ((c : Thread nD τ).loc main_arg1)) :=
  (W4_of_ne m ρ c main_v3 (by decide)).trans (HostValues.row_eq m ρ c)

/-- The first dense stage leaves the target indices as they were. -/
theorem col_kept (c : Dev nD) :
    W4 m ρ c (Proc.devRef .tc main_v6) = val_main_v6 (F := Ideal) (m ((c : Thread nD τ).loc main_arg1)) :=
  (W4_of_ne m ρ c main_v6 (by decide)).trans (HostValues.col_eq m ρ c)

/-- The first dense stage leaves the normalisation as it was. -/
theorem norm_kept (c : Dev nD) :
    W4 m ρ c (Proc.devRef .tc main_v31)
      = val_main_v31 (F := Ideal) (m ((c : Thread nD τ).loc main_arg1)) (m ((c : Thread nD τ).loc main_arg2)) :=
  (W4_of_ne m ρ c main_v31 (by decide)).trans (HostValues.norm_eq m ρ c)

/-- The second dense stage is entered with the reference's aggregate. -/
theorem aggregate_eq (c : Dev nD) :
    V5 m ρ c main_v45
      = val_main_v45 (F := Ideal) (m ((c : Thread nD τ).loc main_arg0)) (m ((c : Thread nD τ).loc main_arg1))
          (m ((c : Thread nD τ).loc main_arg2)) (m ((c : Thread nD τ).loc main_arg3)) := by
  show StableHlo.after hostOps1 (W4 m ρ c) (Proc.devRef .tc main_v45) = _
  generalize hW : W4 m ρ c = W
  after_results_simp
  subst hW
  rw [product_eq, row_kept, col_kept, norm_kept]
  unfold val_main_v45 Cert.ReferenceIdeal.Read.val_main_v44 Cert.ReferenceIdeal.Read.val_main_v43 Cert.ReferenceIdeal.Read.val_main_v42
    Cert.ReferenceIdeal.Read.val_main_v41 Cert.ReferenceIdeal.Read.val_main_v40 Cert.ReferenceIdeal.Read.val_main_v39
    Cert.ReferenceIdeal.Read.val_main_v38 Cert.ReferenceIdeal.Read.val_main_v37 Cert.ReferenceIdeal.Read.val_main_v36
    Cert.ReferenceIdeal.Read.val_main_v35 Cert.ReferenceIdeal.Read.val_main_v34 Cert.ReferenceIdeal.Read.val_main_v33
    Cert.ReferenceIdeal.Read.val_main_cst_8 Cert.ReferenceIdeal.Read.val_main_c_6 Cert.ReferenceIdeal.Read.val_main_c_7
  generalize val_main_v32 (F := Ideal) (m ((c : Thread nD τ).loc main_arg0)) (m ((c : Thread nD τ).loc main_arg3)) = h
  generalize val_main_v3 (F := Ideal) (m ((c : Thread nD τ).loc main_arg1)) = r
  generalize val_main_v6 (F := Ideal) (m ((c : Thread nD τ).loc main_arg1)) = t
  generalize val_main_v31 (F := Ideal) (m ((c : Thread nD τ).loc main_arg1)) (m ((c : Thread nD τ).loc main_arg2)) = n
  rfl

/-- The second dense stage finds the hidden bias as launched. -/
theorem entry_bias (c : Dev nD) : V5 m ρ c main_arg4 = m ((c : Thread nD τ).loc main_arg4) :=
  ((W6_arr m ρ c 1).trans (((dat1 (V5 m ρ) c).arrAt_in 1 rfl _).trans (A_eq1 (V5 m ρ) c 1))).symm.trans
    (W6_main_arg4 m ρ c)

/-- The second dense stage finds the output weight as launched. -/
theorem entry_weight (c : Dev nD) : V5 m ρ c main_arg5 = m ((c : Thread nD τ).loc main_arg5) :=
  ((W6_arr m ρ c 2).trans (((dat1 (V5 m ρ) c).arrAt_in 2 rfl _).trans (A_eq1 (V5 m ρ) c 2))).symm.trans
    (W6_main_arg5 m ρ c)

/-- The second dense stage finds the output bias as launched. -/
theorem entry_out_bias (c : Dev nD) : V5 m ρ c main_arg6 = m ((c : Thread nD τ).loc main_arg6) :=
  ((W6_arr m ρ c 3).trans (((dat1 (V5 m ρ) c).arrAt_in 3 rfl _).trans (A_eq1 (V5 m ρ) c 3))).symm.trans
    (W6_main_arg6 m ρ c)

/-- The result array after the run. -/
theorem result_eq (c : Dev nD) :
    W6 m ρ c (Proc.devRef .tc main_v46)
      = head (M := 100000) (K := 16) (N := 32)
          (val_main_v45 (F := Ideal) (m ((c : Thread nD τ).loc main_arg0)) (m ((c : Thread nD τ).loc main_arg1))
            (m ((c : Thread nD τ).loc main_arg2)) (m ((c : Thread nD τ).loc main_arg3)))
          (m ((c : Thread nD τ).loc main_arg4)) (m ((c : Thread nD τ).loc main_arg5)) (m ((c : Thread nD τ).loc main_arg6)) := by
  refine (W6_arr m ρ c 4).trans ((Blocks.final_head (V5 m ρ) c).trans ?_)
  rw [aggregate_eq, entry_bias, entry_weight, entry_out_bias]

/-- Every run of the kernel's program ends with the result array at the output stage of the reference's aggregate, the
    arguments as launched. -/
theorem run : θ_run defs (onTc (τ := τ) (main (F := Ideal))) ⟨m, fun _ => 0, ρ⟩ (fun r => ∀ c : Dev nD,
      r.2.mem ((c.tc : Thread nD τ).loc main_v46)
        = head (M := 100000) (K := 16) (N := 32)
            (val_main_v45 (F := Ideal) (m ((c : Thread nD τ).loc main_arg0)) (m ((c : Thread nD τ).loc main_arg1))
              (m ((c : Thread nD τ).loc main_arg2)) (m ((c : Thread nD τ).loc main_arg3)))
            (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (Cert.KernelIdeal.GenRun.run_named m ρ)

end Cert.KernelIdeal.Result

end
-- ==== Proof.lean ====
/-
  A two-layer graph convolution against its jnp reference, over the extended reals.

  Both programs compute `out = max (A (x W) + b) 0 · W' + b'`, where `A` is the graph's normalised adjacency acting
  on the rows of `x W`: the rows are gathered at the edges' source nodes, scaled by `dinv[src] * w * dinv[dst]` and
  scatter-added at the target nodes (self loops of weight one appended to the edge list; `dinv` the in-degree's
  reciprocal square root where the degree is positive, zero elsewhere). The kernel's program computes the two dense
  stages `x W` and `max (agg + b) 0 · W' + b'` in kernels tiled over blocks of 2000 rows and everything else by the
  same host operations as the reference; the reference computes the dense stages by `dot_general`, additions and a
  maximum.

  Over the extended reals a matrix product into a zero accumulator and a `dot_general` are the same sum over the
  contracted axis, the roundings on the way into the product are the identity, and a block of rows of the product
  depends only on the same rows of its left operand; so each tiled stage leaves in its result array the whole-array
  function the reference computes (`Spec.linear`, `Spec.head`). The operations between the stages are the same on
  both sides, applied to equal operands, so they are carried as they stand: no law of arithmetic beyond that
  identification is used, and the precondition is never opened.

  The three frames are the generated ones (the reference's is its generated run with the result dropped); nothing was
  rewritten by the idealization, so `preserves` is trivial.
-/
import proofs.«182122_j72825465471158_1_alg».proof.Defs
import proofs.«182122_j72825465471158_1_alg».proof.Proof.Gen.Kernel
import proofs.«182122_j72825465471158_1_alg».proof.Proof.Gen.Kernel.Skeleton
import proofs.«182122_j72825465471158_1_alg».proof.Proof.Gen.Kernel.Launch
import proofs.«182122_j72825465471158_1_alg».proof.Proof.Gen.Kernel.Points
import proofs.«182122_j72825465471158_1_alg».proof.Proof.Gen.Kernel.Frame
import proofs.«182122_j72825465471158_1_alg».proof.Proof.Gen.KernelIdeal
import proofs.«182122_j72825465471158_1_alg».proof.Proof.Gen.KernelIdeal.Skeleton
import proofs.«182122_j72825465471158_1_alg».proof.Proof.Gen.KernelIdeal.Launch
import proofs.«182122_j72825465471158_1_alg».proof.Proof.Gen.KernelIdeal.Points
import proofs.«182122_j72825465471158_1_alg».proof.Proof.Gen.KernelIdeal.Frame
import proofs.«182122_j72825465471158_1_alg».proof.Proof.Gen.ReferenceIdeal
import proofs.«182122_j72825465471158_1_alg».proof.Proof.Gen.ReferenceIdeal.Run
import proofs.«182122_j72825465471158_1_alg».proof.Proof.Gen.ReferenceIdeal.Read
import proofs.«182122_j72825465471158_1_alg».proof.Proof.Gen.Pre_finite_inputs
import proofs.«182122_j72825465471158_1_alg».proof.Proof.KernelValue
import proofs.«182122_j72825465471158_1_alg».proof.Proof.RefStages
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the output stage of the same aggregate. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v53_eq, Cert.ReferenceIdeal.Stages.head_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
